-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S800000 32) (main_arg2 : IVec S800000 32) (main_arg3 : FVec F S800000 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 24
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .f32⟩
  | .hbm, ⟨15, _⟩ => ⟨S800000x1, .f32⟩
  | .hbm, ⟨16, _⟩ => ⟨S800000x128, .f32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S1x128, .f32⟩
  | .hbm, ⟨23, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .f32⟩
  | .hbm, ⟨15, _⟩ => ⟨S800000x1, .f32⟩
  | .hbm, ⟨16, _⟩ => ⟨S800000x128, .f32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Affine.lean ====
/-
  The result both programs compute, as one function of three arrays: for a matrix `a` of 50000 rows of 128 entries,
  a 128 × 128 matrix `w` and a row `b` of 128 entries, the entry at row `r` and column `j` is
  `(∑ k, a r k · w k j) + b j` over the extended reals — every row of `a` times `w`, the bias added to each row.
  The sum is a finite sum in a commutative monoid, so no order or grouping of it matters and no entry has to be finite.
-/
import Idealize.ShloMosaic.PureOps.Ideal
import Idealize.ShloMosaic.Lib.ValueIdx

noncomputable section

open scoped BigOperators

namespace Cert.Affine

open Idealize.ShloMosaic Idealize.ShloMosaic.ValueIdx

/-- Rows times weights plus bias: entry `(r, j)` is `(∑ k, a (r, k) · w (k, j)) + b j`. -/
def rowsTimesPlus (a : (⟨2, ![50000, 128]⟩ : Shape).Idx → EReal) (w : (⟨2, ![128, 128]⟩ : Shape).Idx → EReal)
    (b : (⟨1, ![128]⟩ : Shape).Idx → EReal) : (⟨2, ![50000, 128]⟩ : Shape).Idx → EReal :=
  fun i => (∑ k : Fin 128, a (ix2 (i 0) k) * w (ix2 k (i 1))) + b (ix1 (i 1))

/-- The same entry with its row and column named. -/
theorem rowsTimesPlus_apply (a : (⟨2, ![50000, 128]⟩ : Shape).Idx → EReal) (w : (⟨2, ![128, 128]⟩ : Shape).Idx → EReal)
    (b : (⟨1, ![128]⟩ : Shape).Idx → EReal) (r : Fin 50000) (j : Fin 128) :
    rowsTimesPlus a w b (ix2 r j) = (∑ k : Fin 128, a (ix2 r k) * w (ix2 k j)) + b (ix1 j) := rfl

end Cert.Affine

end
-- ==== Proof.BodyAffine.lean ====
/-
  What the kernel body stores, entry by entry, over the extended reals. The body loads a block `x` of 5000 rows of the
  aggregated matrix, the whole weight matrix `w` and the bias row `b`, and stores `x · w + b`: the two changes of float
  format are the identity on extended reals, the matrix product into the zero accumulator is the plain sum over the
  128 contracted positions, and the bias row is repeated down the 5000 rows. So the stored entry at row `p`, column `q`
  is `(∑ k, x p k · w k q) + b 0 q`.
-/
import proofs.«169732_j51135880626696_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The product's operand positions: output `(r, c)` at contracted position `k` reads `x (r, k)` and `w (k, c)` -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator, at row `p` and column `q`: the sum over the contracted position. -/
theorem product_at (x : FVec Ideal S5000x128 .bf16) (w : FVec Ideal S128x128 .bf16) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias row repeated down the rows, at row `p` and column `q`: the row's entry at column `q`. -/
theorem bias_at (b : FVec Ideal S1x128 .f32) (h : S1x128.Broadcasts S5000x128) (p : Fin 5000) (q : Fin 128) :
    broadcastTo S5000x128 b h (ix2 p q) = b (ix2 (0 : Fin 1) q) :=
  broadcastTo_apply b h (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- THE STORED ENTRY at row `p`, column `q` of the block: `(∑ k, x (p, k) · w (k, q)) + b (0, q)`. -/
theorem stored_at (x : Vec Ideal S5000x128 .f32) (w : Vec Ideal S128x128 .f32) (b : Vec Ideal S1x128 .f32) (p : Fin 5000) (q : Fin 128) :
    k0_pay1 x w b (ix2 p q) = (∑ k : Fin 128, x (ix2 p k) * w (ix2 k q)) + b (ix2 (0 : Fin 1) q) := by
  unfold k0_pay1
  rw [addf_apply, product_at, bias_at]
  simp only [truncf_apply, shapeCast_self]

end Cert.KernelIdeal.Body

end
-- ==== Proof.KernelAffine.lean ====
/-
  The kernel's result array after the run, as one function of the arrays the region finds.
  The grid has ten points; point `t` stages rows `5000·t … 5000·t + 4999` of the aggregated matrix, the whole weight
  matrix and the whole bias row, and writes back rows `5000·t … 5000·t + 4999` of the result. What it writes is the body's
  stored block, whose entry `(p, q)` is `(∑ k, x (p, k) · w (k, q)) + b (0, q)` of the staged blocks: so it is the block of
  `rowsTimesPlus` at those rows. The ten blocks cover the 50000 rows (row `r` lies in the block of point `r / 5000`), hence
  the result array is `rowsTimesPlus` of the aggregated matrix, the weights and the bias, everywhere.
-/
import proofs.«169732_j51135880626696_1_alg».proof.Proof.Gen.KernelIdeal.Value
import proofs.«169732_j51135880626696_1_alg».proof.Proof.BodyAffine
import proofs.«169732_j51135880626696_1_alg».proof.Proof.Affine
import Idealize.ShloMosaic.Lib.Pipeline.Value
import Idealize.ShloMosaic.Lib.StableHlo.Run
import Idealize.ShloMosaic.Lib.ValueIdx

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the ten points: the aggregated matrix and the result move by row blocks with the point,
    the weights and the bias stay at block (0, 0). -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## A block read through its window, for any contents of the array

Stated over an arbitrary array `A`, so that nothing below ever looks inside the arrays the region finds. -/

/-- Entry `x` of block `t` of a 50000-row array staged through window 0 is the array's entry `5000·t` rows further down. -/
theorem read_rows (c : Dev nD) (t : Fin cfg0.N) (A : S50000x128.Idx → EReal) (x : S5000x128.Idx) (i : S50000x128.Idx)
    (h0 : (i 0).val = 5000 * t.val + (x 0).val) (h1 : (i 1).val = (x 1).val) :
    (((cfg0.win 0).blk t).view.read (Elt Ideal) (A : Buf (Elt Ideal) ((c : Thread nD τ).loc (Pipeline.arrRef spec0 0))) : S5000x128.Idx → EReal) x = A i := by
  obtain ⟨e0, e1, -⟩ := block_index t
  rw [View.read_apply]
  show A _ = A _
  refine congrArg A (funext fun a => Fin.ext ?_)
  match a with
  | ⟨0, _⟩ => show win0_0.index t 0 * 5000 + 1 * (x 0).val = (i 0).val; rw [e0, h0]; omega
  | ⟨1, _⟩ => show win0_0.index t 1 * 128 + 1 * (x 1).val = (i 1).val; rw [e1, h1]; omega

/-- Window 1's block at every point is its whole 128 × 128 array. -/
theorem read_weights (c : Dev nD) (t : Fin cfg0.N) (A : S128x128.Idx → EReal) (x : S128x128.Idx) :
    (((cfg0.win 1).blk t).view.read (Elt Ideal) (A : Buf (Elt Ideal) ((c : Thread nD τ).loc (Pipeline.arrRef spec0 1))) : S128x128.Idx → EReal) x = A x := by
  obtain ⟨-, -, e2, e3, -⟩ := block_index t
  rw [View.read_apply]
  show A _ = A _
  refine congrArg A (funext fun a => Fin.ext ?_)
  match a with
  | ⟨0, _⟩ => show win0_1.index t 0 * 128 + 1 * (x 0).val = (x 0).val; rw [e2]; omega
  | ⟨1, _⟩ => show win0_1.index t 1 * 128 + 1 * (x 1).val = (x 1).val; rw [e3]; omega

/-- Window 2's block at every point is its whole 1 × 128 array. -/
theorem read_bias (c : Dev nD) (t : Fin cfg0.N) (A : S1x128.Idx → EReal) (x : S1x128.Idx) :
    (((cfg0.win 2).blk t).view.read (Elt Ideal) (A : Buf (Elt Ideal) ((c : Thread nD τ).loc (Pipeline.arrRef spec0 2))) : S1x128.Idx → EReal) x = A x := by
  obtain ⟨-, -, -, -, e4, e5, -⟩ := block_index t
  rw [View.read_apply]
  show A _ = A _
  refine congrArg A (funext fun a => Fin.ext ?_)
  match a with
  | ⟨0, _⟩ => show win0_2.index t 0 * 1 + 1 * (x 0).val = (x 0).val; rw [e4]; omega
  | ⟨1, _⟩ => show win0_2.index t 1 * 128 + 1 * (x 1).val = (x 1).val; rw [e5]; omega

/-- Entry `j` of block `t` of a 50000-row array written through window 3 is the array's entry `5000·t` rows further down. -/
theorem read_result (c : Dev nD) (t : Fin cfg0.N) (A : S50000x128.Idx → EReal) (j : ((cfg0.win 3).xblock (grid0.coords t)).Idx) (i : S50000x128.Idx)
    (h0 : (i 0).val = 5000 * t.val + (j 0).val) (h1 : (i 1).val = (j 1).val) :
    ((cfg0.win 3).blk t).view.read (Elt Ideal) (A : Buf (Elt Ideal) ((c : Thread nD τ).loc (Pipeline.arrRef spec0 3))) j = A i := by
  obtain ⟨-, -, -, -, -, -, e6, e7⟩ := block_index t
  rw [View.read_apply]
  show A _ = A _
  refine congrArg A (funext fun a => Fin.ext ?_)
  match a with
  | ⟨0, _⟩ => show win0_3.index t 0 * 5000 + 1 * (j 0).val = (i 0).val; rw [e6, h0]; omega
  | ⟨1, _⟩ => show win0_3.index t 1 * 128 + 1 * (j 1).val = (i 1).val; rw [e7, h1]; omega

/-! ## The staged blocks as parts of the arrays the region finds -/

/-- Entry `x` of the aggregated matrix's block at point `t` is the matrix's entry `5000·t` rows further down. -/
theorem rows_block (c : Dev nD) (t : Fin cfg0.N) (x : S5000x128.Idx) (i : S50000x128.Idx)
    (h0 : (i 0).val = 5000 * t.val + (x 0).val) (h1 : (i 1).val = (x 1).val) :
    (iblk m c 0 t : Vec Ideal S5000x128 .f32) x = (V m c main_v12 : S50000x128.Idx → EReal) i := by
  unfold iblk
  exact read_rows c t (V m c main_v12) x i h0 h1

/-- The weights' block at every point is the weight matrix. -/
theorem weights_block (c : Dev nD) (t : Fin cfg0.N) (x : S128x128.Idx) :
    (iblk m c 1 t : Vec Ideal S128x128 .f32) x = (V m c main_arg4 : S128x128.Idx → EReal) x := by
  unfold iblk
  exact read_weights c t (V m c main_arg4) x

/-- The bias's block at every point is the bias row. -/
theorem bias_block (c : Dev nD) (t : Fin cfg0.N) (x : S1x128.Idx) :
    (iblk m c 2 t : Vec Ideal S1x128 .f32) x = (V m c main_v13 : S1x128.Idx → EReal) x := by
  unfold iblk
  exact read_bias c t (V m c main_v13) x

/-- The bias row the region finds is the bias argument laid out as one row. -/
theorem bias_row (c : Dev nD) (q : Fin 128) :
    (V m c main_v13 : S1x128.Idx → EReal) (ix2 (0 : Fin 1) q) = (m ((c : Thread nD τ).loc main_arg5) : S128.Idx → EReal) (ix1 q) := by
  have e : (V m c main_v13 : S1x128.Idx → EReal) = shapeCast S1x128 (m ((c : Thread nD τ).loc main_arg5) : S128.Idx → EReal) shapeCasts_S128_S1x128 := by
    dsimp only [Gen.V, Gen.hostOps0]; after_results; rfl
  rw [e]
  refine (shapeCast_addUnit_apply ![128] _ _ (ix2 (0 : Fin 1) q)).trans ?_
  exact congrArg _ (funext fun a => by match a with | ⟨0, _⟩ => rfl)

/-! ## What a point writes back, and the whole array -/

/-- WHAT POINT `t` WRITES BACK is block `t` of rows-times-weights-plus-bias of the arrays as the region finds them. -/
theorem flushed_eq (c : Dev nD) (t : Fin cfg0.N) :
    (dats m 0 c).flushed 3 t = ((cfg0.win 3).blk t).view.read (Elt Ideal)
      (Cert.Affine.rowsTimesPlus (V m c main_v12) (m ((c : Thread nD τ).loc main_arg4)) (m ((c : Thread nD τ).loc main_arg5))) := by
  rw [flushed3]
  unfold out0_3
  rw [View.canon_unit_zero zero_offsets]
  simp only [View.ld_unit_zero (S := S5000x128) zero_offsets, View.ld_unit_zero (S := S128x128) zero_offsets, View.ld_unit_zero (S := S1x128) zero_offsets]
  funext j
  have hj0 : (j 0).val < 5000 := (j 0).isLt
  have hj1 : (j 1).val < 128 := (j 1).isLt
  have ht : t.val < 10 := lt_of_lt_of_eq t.isLt N_0
  have el : (cfg0.win 3).xinj (grid0.coords t) j = (ix2 (⟨(j 0).val, hj0⟩ : Fin 5000) (⟨(j 1).val, hj1⟩ : Fin 128) : S5000x128.Idx) :=
    funext fun a => Fin.ext (by match a with | ⟨0, _⟩ => rfl | ⟨1, _⟩ => rfl)
  refine Eq.trans ?_ (read_result c t _ j (ix2 (⟨5000 * t.val + (j 0).val, by omega⟩ : Fin 50000) (⟨(j 1).val, hj1⟩ : Fin 128)) rfl rfl).symm
  show k0_pay1 (iblk m c 0 t) (iblk m c 1 t) (iblk m c 2 t) ((cfg0.win 3).xinj (grid0.coords t) j) = _
  rw [el, Cert.Affine.rowsTimesPlus_apply]
  refine (Cert.KernelIdeal.Body.stored_at (iblk m c 0 t) (iblk m c 1 t) (iblk m c 2 t) _ _).trans ?_
  rw [bias_block m c t, bias_row m c]
  refine congrArg₂ (· + ·) (Finset.sum_congr rfl fun k _ => ?_) rfl
  rw [rows_block m c t (ix2 (⟨(j 0).val, hj0⟩ : Fin 5000) k) (ix2 (⟨5000 * t.val + (j 0).val, by omega⟩ : Fin 50000) k) rfl rfl, weights_block m c t, V_main_arg4 m c]

/-- An index of the result is in point `t`'s block iff each coordinate is in the block's range on its axis. -/
theorem mem_block (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v14).slice (win0_3.rect t)).set ↔ _
  rw [View.set_slice_whole, Rect.mem_set_unit]
  exact Iff.rfl

/-- Every index of the result lies in the block of the point its row falls to: row `r` in the block of point `r / 5000`. -/
theorem covered (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  have hlt : (i 0).val / 5000 < cfg0.N := by rw [hN]; omega
  obtain ⟨-, -, -, -, -, -, e6, e7⟩ := block_index ⟨(i 0).val / 5000, hlt⟩
  refine ⟨⟨(i 0).val / 5000, hlt⟩, flush0_3 _, ?_⟩
  rw [mem_block]
  intro a
  match a with
  | ⟨0, _⟩ =>
    show win0_3.index ⟨(i 0).val / 5000, hlt⟩ 0 * 5000 ≤ (i 0).val ∧ (i 0).val < win0_3.index ⟨(i 0).val / 5000, hlt⟩ 0 * 5000 + 5000
    rw [e6]; show (i 0).val / 5000 * 5000 ≤ (i 0).val ∧ (i 0).val < (i 0).val / 5000 * 5000 + 5000; omega
  | ⟨1, _⟩ =>
    show win0_3.index ⟨(i 0).val / 5000, hlt⟩ 1 * 128 ≤ (i 1).val ∧ (i 1).val < win0_3.index ⟨(i 0).val / 5000, hlt⟩ 1 * 128 + 128
    rw [e7]; omega

/-- THE RESULT ARRAY after the run: rows-times-weights-plus-bias of the aggregated matrix the region finds, the weight
    argument and the bias argument. -/
theorem result_array (c : Dev nD) : (dats m 0 c).arrAt 3 cfg0.N
    = Cert.Affine.rowsTimesPlus (V m c main_v12) (m ((c : Thread nD τ).loc main_arg4)) (m ((c : Thread nD τ).loc main_arg5)) :=
  (dats m 0 c).arrAt_eq_of_cover 3 _ (fun t _ => flushed_eq m c t) covered

/-- The run, read: the result at that function, the arguments unchanged. -/
theorem run : θ_run defs (onTc (τ := τ) (main (F := Ideal))) ⟨m, fun _ => 0, ρ⟩ fun r => ∀ c : Dev nD,
      r.2.mem ((c : Thread nD τ).loc main_v14) = Cert.Affine.rowsTimesPlus (V m c main_v12) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (result_array m c), (h c).2⟩) (run_blocks m ρ)

end Cert.KernelIdeal.Whole

end
-- ==== Proof.RefAffine.lean ====
/-
  The reference's result, entry by entry: its last three operations are the product of the aggregated matrix with the
  weights (at the ideal values a plain sum over the 128 contracted positions), the bias row repeated down the rows, and
  their sum. So the result is `rowsTimesPlus` of the aggregated matrix (the reference's scatter-add stage, never opened
  here), the weights and the bias.
-/
import proofs.«169732_j51135880626696_1_alg».proof.Proof.Gen.ReferenceIdeal.Read
import proofs.«169732_j51135880626696_1_alg».proof.Proof.Affine

noncomputable section

open scoped BigOperators

namespace Cert.ReferenceIdeal.RefAffine

open Cert.ReferenceIdeal Cert.ReferenceIdeal.Gen Cert.ReferenceIdeal.Read Idealize.ShloMosaic Idealize.ShloMosaic.ValueIdx

/-- The product's left operand position at output `i`, contracted position `k`: row of `i`, column `k`. -/
theorem left_pos (i : S50000x128.Idx) (k : Fin 128) : lidx_main_v13 i k = ix2 (i 0) k :=
  funext fun a => Fin.ext (by match a with | ⟨0, _⟩ => rfl | ⟨1, _⟩ => rfl)
/-- Its right operand position: row `k`, column of `i`. -/
theorem right_pos (i : S50000x128.Idx) (k : Fin 128) : ridx_main_v13 i k = ix2 k (i 1) :=
  funext fun a => Fin.ext (by match a with | ⟨0, _⟩ => rfl | ⟨1, _⟩ => rfl)
/-- The repeated bias at output `i` is the bias at `i`'s column. -/
theorem bias_pos (i : S50000x128.Idx) : idx_main_v14 (idx_main_v15 i) = ix1 (i 1) :=
  funext fun a => Fin.ext (by match a with | ⟨0, _⟩ => rfl)

/-- THE REFERENCE'S RESULT is rows-times-weights-plus-bias of its aggregated matrix. -/
theorem result_eq (x0 : (⟨S50000x128, .f32⟩ : BufTy).Contents (Elt Ideal)) (x1 x2 : (⟨S800000, .i32⟩ : BufTy).Contents (Elt Ideal))
    (x3 : (⟨S800000, .f32⟩ : BufTy).Contents (Elt Ideal)) (x4 : (⟨S128x128, .f32⟩ : BufTy).Contents (Elt Ideal))
    (x5 : (⟨S128, .f32⟩ : BufTy).Contents (Elt Ideal)) :
    val_main_v16 (F := Ideal) x0 x1 x2 x3 x4 x5 = Cert.Affine.rowsTimesPlus (val_main_v12 (F := Ideal) x0 x1 x2 x3) x4 x5 := by
  funext i
  rw [val_main_v16_apply, val_main_v13_apply, val_main_v15_apply, val_main_v14_apply]
  simp only [left_pos, right_pos, bias_pos]
  rfl

end Cert.ReferenceIdeal.RefAffine

end
-- ==== Proof.SameAggregate.lean ====
/-
  Both programs aggregate the same way before their last stage: the source indices are wrapped once where negative,
  the rows of `x` they name are gathered, each row is scaled by its edge weight, and the rows are added into the zero
  matrix at the destination indices. The kernel's program does it as the host operations before its one region, the
  reference as its first sixteen operations; the two spell the same operations with the same dimension numbers and
  literals, so the aggregated matrix the region finds IS the reference's scatter-add stage of the same arguments — no
  operation is opened, whatever the indices are.
-/
import proofs.«169732_j51135880626696_1_alg».proof.Proof.Gen.KernelIdeal.Frame
import proofs.«169732_j51135880626696_1_alg».proof.Proof.Gen.ReferenceIdeal.Read
import Idealize.ShloMosaic.Lib.StableHlo.Run

noncomputable section

namespace Cert.KernelIdeal.SameAggregate

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The aggregated matrix the region finds is the reference's scatter-add stage of the same four arguments. -/
theorem aggregated_eq (c : Dev nD) :
    (V m c main_v12 : S50000x128.Idx → EReal)
      = Cert.ReferenceIdeal.Read.val_main_v12 (F := Ideal) (m ((c : Thread nD τ).loc main_arg0)) (m ((c : Thread nD τ).loc main_arg1))
          (m ((c : Thread nD τ).loc main_arg2)) (m ((c : Thread nD τ).loc main_arg3)) := by
  dsimp only [Gen.V, Gen.hostOps0]
  after_results
  rfl

end Cert.KernelIdeal.SameAggregate

end
-- ==== Proof.lean ====
/-
  A graph-convolution layer: rows of `x` gathered along the edges' sources, scaled by the edge weights and added up at
  the edges' destinations (the aggregated matrix), then every row times the 128 × 128 weight matrix plus the bias.
  The kernel's program and the reference aggregate with the same host operations; they differ only in the last stage,
  which the kernel does in ten row blocks of 5000 through a matrix unit fed with narrowed floats, and the reference
  as one product and one broadcast sum. Over the extended reals narrowing is the identity and both products are the plain
  sum over the 128 contracted positions, so both results are `(∑ k, agg (r, k) · W (k, j)) + b j` at every row `r` and
  column `j` (`Cert.Affine.rowsTimesPlus`): the same finite sum, term for term, with no law that needs finiteness.
  The kernel's result array is read block by block and assembled over the grid (Proof/KernelAffine.lean over
  Proof/BodyAffine.lean), the reference's result through its last three operations (Proof/RefAffine.lean), and the two
  aggregated matrices are one term (Proof/SameAggregate.lean). The ideal pass rewrote nothing, so `preserves` is `True`.
-/
import proofs.«169732_j51135880626696_1_alg».proof.Defs
import proofs.«169732_j51135880626696_1_alg».proof.Proof.Gen.Kernel
import proofs.«169732_j51135880626696_1_alg».proof.Proof.Gen.Kernel.Skeleton
import proofs.«169732_j51135880626696_1_alg».proof.Proof.Gen.Kernel.Launch
import proofs.«169732_j51135880626696_1_alg».proof.Proof.Gen.Kernel.Points
import proofs.«169732_j51135880626696_1_alg».proof.Proof.Gen.Kernel.Frame
import proofs.«169732_j51135880626696_1_alg».proof.Proof.Gen.KernelIdeal
import proofs.«169732_j51135880626696_1_alg».proof.Proof.Gen.KernelIdeal.Skeleton
import proofs.«169732_j51135880626696_1_alg».proof.Proof.Gen.KernelIdeal.Launch
import proofs.«169732_j51135880626696_1_alg».proof.Proof.Gen.KernelIdeal.Points
import proofs.«169732_j51135880626696_1_alg».proof.Proof.Gen.KernelIdeal.Frame
import proofs.«169732_j51135880626696_1_alg».proof.Proof.Gen.ReferenceIdeal
import proofs.«169732_j51135880626696_1_alg».proof.Proof.Gen.Pre_finite_inputs
import proofs.«169732_j51135880626696_1_alg».proof.Proof.Gen.KernelIdeal.Value
import proofs.«169732_j51135880626696_1_alg».proof.Proof.Gen.ReferenceIdeal.Run
import proofs.«169732_j51135880626696_1_alg».proof.Proof.Gen.ReferenceIdeal.Read
import proofs.«169732_j51135880626696_1_alg».proof.Proof.Affine
import proofs.«169732_j51135880626696_1_alg».proof.Proof.BodyAffine
import proofs.«169732_j51135880626696_1_alg».proof.Proof.KernelAffine
import proofs.«169732_j51135880626696_1_alg».proof.Proof.RefAffine
import proofs.«169732_j51135880626696_1_alg».proof.Proof.SameAggregate
import Idealize.ShloMosaic.Adequacy
import Idealize.ShloMosaic.Init

noncomputable section

namespace Cert.Proof

open Idealize.ShloMosaic Idealize.ShloMosaic.TcCoe Idealize.SL.Sem

/-- The kernel's program at the word level runs and keeps its arguments: the generated frame. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and keeps its arguments: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the six arguments both programs end with the result array at rows-times-weights-plus-bias
    of the one aggregated matrix, the weights and the bias. -/
theorem algebraic : Cert.algebraic_KernelIdeal_ReferenceIdeal := by
  intro m ρ m' ρ' _ hagree
  refine ⟨fun c => Cert.Affine.rowsTimesPlus (Cert.KernelIdeal.Gen.V m c Cert.KernelIdeal.main_v12)
    (m ((c : Thread Cert.KernelIdeal.nD Cert.KernelIdeal.τ).loc Cert.KernelIdeal.main_arg4))
    (m ((c : Thread Cert.KernelIdeal.nD Cert.KernelIdeal.τ).loc Cert.KernelIdeal.main_arg5)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v16_eq, Cert.ReferenceIdeal.RefAffine.result_eq, a0, a1, a2, a3, a4, a5]
  exact congrArg (fun A => Cert.Affine.rowsTimesPlus A _ _) (Cert.KernelIdeal.SameAggregate.aggregated_eq m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
